-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096x32 : Shape := ⟨2, ![4096, 32]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S256x4096 .f32) (main_arg1 : IVec S4096x4096 32) (main_arg2 : FVec F S4096x32 .f32) (main_arg3 : FVec F S4096x32 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S256x4096 : Shape := ⟨2, ![256, 4096]⟩
abbrev S4096x4096 : Shape := ⟨2, ![4096, 4096]⟩
abbrev S4096x32 : Shape := ⟨2, ![4096, 32]⟩
abbrev S256x1024 : Shape := ⟨2, ![256, 1024]⟩
abbrev S2048x1024 : Shape := ⟨2, ![2048, 1024]⟩
abbrev S2048x32 : Shape := ⟨2, ![2048, 32]⟩
abbrev S256x2048 : Shape := ⟨2, ![256, 2048]⟩
abbrev S2048x8 : Shape := ⟨2, ![2048, 8]⟩
abbrev S2048x8x1 : Shape := ⟨3, ![2048, 8, 1]⟩
abbrev S2048x8x128 : Shape := ⟨3, ![2048, 8, 128]⟩

abbrev nBuf : Space → Nat
  | .hbm => 5
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S2048x1024, .i32⟩
  | .local _ .vmem, ⟨3, _⟩ => ⟨S2048x1024, .i32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let c0 : Index := 0#32
  let arg1 : BitVec 32 := BitVec.ofNat 32 (i 1).val
  let c8_i32 : BitVec 32 := 8#32
  let v3 : BitVec 32 := Scalar.muli arg1 c8_i32
  let v4 : Index := Scalar.indexCast v3
  ![0, v4.toNat]
def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S2048x8 : 0 < S2048x8.numel
  shapeCasts_S2048x8_S2048x8x1 : S2048x8.ShapeCasts S2048x8x1
  broadcasts_S2048x8x1_S2048x8x128 : S2048x8x1.Broadcasts S2048x8x128
  shapeCasts_S2048x8x128_S2048x1024 : S2048x8x128.ShapeCasts S2048x1024
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  dot_S256x1024_S2048x1024_S256x2048_1_1_0_0_n_n_wf : DotDims.WF S256x1024 S2048x1024 S256x2048 [1] [1] [0] [0] [] []
  hrank0 : 0 < grid0.rank
  k0_off1_inb : ∀ i : grid0.Coords, ∀ a, (k0_off1 i) a + S2048x8.size a ≤ S2048x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .i32 = 32 ∨ (Rect.block (s := S4096x4096) S2048x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S4096x32.size a
  hwx0_2 : ∀ i : grid0.Coords, EltTy.bits .f32 = 32 ∨ (Rect.block (s := S4096x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S4096x32.size a
  hwx0_3 : ∀ i : grid0.Coords, EltTy.bits .f32 = 32 ∨ (Rect.block (s := S4096x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x4096.size a
  hwx0_4 : ∀ i : grid0.Coords, EltTy.bits .f32 = 32 ∨ (Rect.block (s := S256x4096) S256x2048.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096x32 : Shape := ⟨2, ![4096, 32]⟩
abbrev S4096x32x128 : Shape := ⟨3, ![4096, 32, 128]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096x32x128, .f32⟩
  | .hbm, ⟨5, _⟩ => ⟨S4096x4096, .f32⟩
  | .hbm, ⟨6, _⟩ => ⟨S4096x32x128, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  dot_S256x4096_S4096x4096_S256x4096_1_1_0_0_n_n_wf : DotDims.WF S256x4096 S4096x4096 S256x4096 [1] [1] [0] [0] [] []

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.KernelPieces.lean ====
/-
  What one run of the kernel body leaves in the accumulator and in the output block, as values.

  At a grid point the body sees a `[256, 1024]` block `a` of `A`, a `[2048, 1024]` block `q` of the stored integers and
  `[2048, 32]` row blocks `s`, `z` of the two per-group tables, of which it takes the eight columns belonging to the
  point's block of 1024 weight columns (`groupCols`). Writing `step a q s z acc` for
  `acc + a · ((q - spread z') ⊙ spread s')ᵀ` with `s'`, `z'` those eight columns, the three control cases leave:

    first column block of a row tile   accumulator := step … 0          (the accumulator is zeroed first, then read back)
    a middle column block              accumulator := step … acc
    last column block                  accumulator := step … acc, and the output block is a copy of the accumulator.

  Each is read off the stores the body's symbolic run found: a buffer stored whole holds the last value stored, and a
  whole-buffer load after a whole-buffer store reads that value.
-/
import proofs.«166284_j29970281792057_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Dequant.Kernel

open Cert.KernelIdeal Cert.KernelIdeal.Gen

variable {F : FTy → Type} [FloatOps F]

theorem hz : (![0, 0] : Fin 2 → Nat) = fun _ => 0 := funext fun a => by fin_cases a <;> rfl

/-- The eight columns of a `[2048, 32]` table block that belong to the point's block of weight columns: columns
    `8·k … 8·k + 7` at column-block coordinate `k`. -/
abbrev groupCols (i : grid0.Coords) (x : Vec F S2048x32 .f32) : Vec F S2048x8 .f32 :=
  View.ld x (Rect.unit (s := S2048x32) (k0_off1 i) S2048x8.size (k0_off1_inb i))

/-- One accumulation step: the accumulator plus the block product, the body's one arithmetic payload. -/
abbrev step (i : grid0.Coords) (x0 : Vec F S256x1024 .f32) (x1 : Vec F S2048x1024 .i32) (x2 : Vec F S2048x32 .f32) (x3 : Vec F S2048x32 .f32) (acc : Vec F S256x2048 .f32) : Vec F S256x2048 .f32 :=
  k0_pay2 (groupCols i x2) (groupCols i x3) x1 x0 acc

/-- A middle column block leaves the accumulator one step on. -/
theorem acc_middle (c : Dev nD) (i : grid0.Coords) (a2 : Memref sig .tc .vmem S256x1024 .f32) (h2 : a2.IsWhole) (a3 : Memref sig .tc .vmem S2048x1024 .i32) (h3 : a3.IsWhole) (a4 : Memref sig .tc .vmem S2048x32 .f32) (h4 : a4.IsWhole) (a5 : Memref sig .tc .vmem S2048x32 .f32) (h5 : a5.IsWhole) (a6 : Memref sig .tc .vmem S256x2048 .f32) (h6 : a6.IsWhole) (a7 : Memref sig .tc .vmem S256x2048 .f32) (h7 : a7.IsWhole) (hc0 : ¬cond0_0 i) (hc1 : ¬cond0_1 i)
    (x0 : Vec F S256x1024 .f32) (x1 : Vec F S2048x1024 .i32) (x2 : Vec F S2048x32 .f32) (x3 : Vec F S2048x32 .f32) (xs0 : Vec F S256x2048 .f32) :
    sout0_B_0 c i a2 h2 a3 h3 a4 h4 a5 h5 a6 h6 a7 h7 hc0 hc1 x0 x1 x2 x3 xs0 = step i x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread, View.ld_unit_zero (S := S256x2048) hz, View.ld_unit_zero (S := S256x1024) hz, View.ld_unit_zero (S := S2048x1024) hz]
  rfl

/-- The last column block leaves the accumulator one step on, -/
theorem acc_last (c : Dev nD) (i : grid0.Coords) (a2 : Memref sig .tc .vmem S256x1024 .f32) (h2 : a2.IsWhole) (a3 : Memref sig .tc .vmem S2048x1024 .i32) (h3 : a3.IsWhole) (a4 : Memref sig .tc .vmem S2048x32 .f32) (h4 : a4.IsWhole) (a5 : Memref sig .tc .vmem S2048x32 .f32) (h5 : a5.IsWhole) (a6 : Memref sig .tc .vmem S256x2048 .f32) (h6 : a6.IsWhole) (a7 : Memref sig .tc .vmem S256x2048 .f32) (h7 : a7.IsWhole) (hc0 : ¬cond0_0 i) (hc1 : cond0_1 i)
    (x0 : Vec F S256x1024 .f32) (x1 : Vec F S2048x1024 .i32) (x2 : Vec F S2048x32 .f32) (x3 : Vec F S2048x32 .f32) (xs0 : Vec F S256x2048 .f32) :
    sout0_C_0 c i a2 h2 a3 h3 a4 h4 a5 h5 a6 h6 a7 h7 hc0 hc1 x0 x1 x2 x3 xs0 = step i x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread, View.ld_unit_zero (S := S256x2048) hz, View.ld_unit_zero (S := S256x1024) hz, View.ld_unit_zero (S := S2048x1024) hz]
  rfl

/-- and the output block holds the same value: it is stored from a load of the accumulator just written. -/
theorem out_last (c : Dev nD) (i : grid0.Coords) (a2 : Memref sig .tc .vmem S256x1024 .f32) (h2 : a2.IsWhole) (a3 : Memref sig .tc .vmem S2048x1024 .i32) (h3 : a3.IsWhole) (a4 : Memref sig .tc .vmem S2048x32 .f32) (h4 : a4.IsWhole) (a5 : Memref sig .tc .vmem S2048x32 .f32) (h5 : a5.IsWhole) (a6 : Memref sig .tc .vmem S256x2048 .f32) (h6 : a6.IsWhole) (a7 : Memref sig .tc .vmem S256x2048 .f32) (h7 : a7.IsWhole) (hc0 : ¬cond0_0 i) (hc1 : cond0_1 i)
    (x0 : Vec F S256x1024 .f32) (x1 : Vec F S2048x1024 .i32) (x2 : Vec F S2048x32 .f32) (x3 : Vec F S2048x32 .f32) (xs0 : Vec F S256x2048 .f32) :
    out0_C_4 c i a2 h2 a3 h3 a4 h4 a5 h5 a6 h6 a7 h7 hc0 hc1 x0 x1 x2 x3 xs0 = step i x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S256x2048) _ hz]
  simp only [View.readAt_eq_ld, h2.read_unread, h3.read_unread, h4.read_unread, h5.read_unread, h7.read_unread, View.ld_unit_zero (S := S256x2048) hz, View.ld_unit_zero (S := S256x1024) hz, View.ld_unit_zero (S := S2048x1024) hz]
  rfl

/-- The first column block zeroes the accumulator, reads the zeros back and leaves one step from them. -/
theorem acc_first (c : Dev nD) (i : grid0.Coords) (a2 : Memref sig .tc .vmem S256x1024 .f32) (h2 : a2.IsWhole) (a3 : Memref sig .tc .vmem S2048x1024 .i32) (h3 : a3.IsWhole) (a4 : Memref sig .tc .vmem S2048x32 .f32) (h4 : a4.IsWhole) (a5 : Memref sig .tc .vmem S2048x32 .f32) (h5 : a5.IsWhole) (a6 : Memref sig .tc .vmem S256x2048 .f32) (h6 : a6.IsWhole) (a7 : Memref sig .tc .vmem S256x2048 .f32) (h7 : a7.IsWhole) (hc0 : cond0_0 i) (hc1 : ¬cond0_1 i)
    (x0 : Vec F S256x1024 .f32) (x1 : Vec F S2048x1024 .i32) (x2 : Vec F S2048x32 .f32) (x3 : Vec F S2048x32 .f32) :
    sout0_A_0 c i a2 h2 a3 h3 a4 h4 a5 h5 a6 h6 a7 h7 hc0 hc1 x0 x1 x2 x3 = step i x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h7.read_unread, View.ld_unit_zero (S := S256x2048) hz, View.ld_unit_zero (S := S256x1024) hz, View.ld_unit_zero (S := S2048x1024) hz]
  rfl

end Cert.Dequant.Kernel

end
-- ==== Proof.KernelBlocks.lean ====
/-
  Where each grid point's blocks sit in the argument arrays.

  The grid is 2 row tiles of the weight × 4 blocks of 1024 weight columns; point `t` works on row tile `t / 4` and column
  block `t % 4`. Its block of `A` is all 256 rows, columns `1024·(t % 4) …`; its block of the stored integers is rows
  `2048·(t / 4) …`, the same columns; its blocks of the two per-group tables are rows `2048·(t / 4) …`, all 32 groups, of
  which the body takes groups `8·(t % 4) … 8·(t % 4) + 7`; the output block is all 256 rows, columns `2048·(t / 4) …`.
  An entry of a block is the array's entry at the block's offset plus the position inside the block, axis by axis.
-/
import proofs.«166284_j29970281792057_1_alg».proof.Proof.KernelPieces
import Idealize.ShloMosaic.Lib.ValueIdx

noncomputable section

open Idealize.ShloMosaic Idealize.ShloMosaic.TcCoe Idealize.SL.Sem

namespace Cert.Dequant.Kernel

open Cert.KernelIdeal Cert.KernelIdeal.Gen Idealize.ShloMosaic.ValueIdx

variable {F : FTy → Type} [FloatOps F]
variable (m : (ℓ : Loc nD τ sig) → Buf (Elt F) ℓ)

/-- The printed index maps, decided over the eight grid points: which block of each array a point works on, and the
    point's column-block coordinate. -/
theorem index_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = 0 ∧ win0_4.index t (1 : Fin 2) = t.val / 4
    ∧ (grid0.coords t 1).val = t.val % 4 :=
  (by decide +kernel : ∀ t : Fin grid0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = 0 ∧ win0_4.index t (1 : Fin 2) = t.val / 4
    ∧ (grid0.coords t 1).val = t.val % 4)

theorem lt8 (t : Fin cfg0.N) : t.val < 8 := lt_of_lt_of_eq t.isLt (show cfg0.N = 8 from N_0)

/-- The argument arrays as the region finds them, and a point's blocks of them, at their literal shapes. -/
abbrev arrA (c : Dev nD) : Vec F S256x4096 .f32 := V m c main_arg0
abbrev arrQ (c : Dev nD) : Vec F S4096x4096 .i32 := V m c main_arg1
abbrev arrS (c : Dev nD) : Vec F S4096x32 .f32 := V m c main_arg2
abbrev arrZ (c : Dev nD) : Vec F S4096x32 .f32 := V m c main_arg3
abbrev blkA (c : Dev nD) (t : Fin cfg0.N) : Vec F S256x1024 .f32 := iblk m c 0 t
abbrev blkQ (c : Dev nD) (t : Fin cfg0.N) : Vec F S2048x1024 .i32 := iblk m c 1 t
abbrev blkS (c : Dev nD) (t : Fin cfg0.N) : Vec F S2048x32 .f32 := iblk m c 2 t
abbrev blkZ (c : Dev nD) (t : Fin cfg0.N) : Vec F S2048x32 .f32 := iblk m c 3 t

/-- Row `n` of point `t`'s row tile, column `kk` of its column block, group `g` of its eight groups — in the whole arrays. -/
def rowAt (t : Fin cfg0.N) (n : Fin 2048) : Fin 4096 := ⟨2048 * (t.val / 4) + n.val, by have := lt8 t; have := n.isLt; omega⟩
def colAt (t : Fin cfg0.N) (kk : Fin 1024) : Fin 4096 := ⟨1024 * (t.val % 4) + kk.val, by have := kk.isLt; omega⟩
def groupAt (t : Fin cfg0.N) (g : Fin 8) : Fin 32 := ⟨8 * (t.val % 4) + g.val, by have := g.isLt; omega⟩

theorem blkA_apply (c : Dev nD) (t : Fin cfg0.N) (p : Fin 256) (kk : Fin 1024) :
    blkA m c t (ix2 p kk) = arrA m c (ix2 p (colAt t kk)) := by
  obtain ⟨e0, e1, -⟩ := index_facts t
  show V m c main_arg0 (((cfg0.win 0).blk t).view.emb (ix2 p kk)) = V m c main_arg0 (ix2 p (colAt t kk))
  refine congrArg (V m c main_arg0) (funext fun a => Fin.ext ?_)
  match a with
  | ⟨0, _⟩ => show win0_0.index t (0 : Fin 2) * 256 + 1 * p.val = p.val; omega
  | ⟨1, _⟩ => show win0_0.index t (1 : Fin 2) * 1024 + 1 * kk.val = 1024 * (t.val % 4) + kk.val; omega

theorem blkQ_apply (c : Dev nD) (t : Fin cfg0.N) (n : Fin 2048) (kk : Fin 1024) :
    blkQ m c t (ix2 n kk) = arrQ m c (ix2 (rowAt t n) (colAt t kk)) := by
  obtain ⟨-, -, e0, e1, -⟩ := index_facts t
  show V m c main_arg1 (((cfg0.win 1).blk t).view.emb (ix2 n kk)) = V m c main_arg1 (ix2 (rowAt t n) (colAt t kk))
  refine congrArg (V m c main_arg1) (funext fun a => Fin.ext ?_)
  match a with
  | ⟨0, _⟩ => show win0_1.index t (0 : Fin 2) * 2048 + 1 * n.val = 2048 * (t.val / 4) + n.val; omega
  | ⟨1, _⟩ => show win0_1.index t (1 : Fin 2) * 1024 + 1 * kk.val = 1024 * (t.val % 4) + kk.val; omega

theorem blkS_apply (c : Dev nD) (t : Fin cfg0.N) (n : Fin 2048) (g : Fin 32) :
    blkS m c t (ix2 n g) = arrS m c (ix2 (rowAt t n) g) := by
  obtain ⟨-, -, -, -, e0, e1, -⟩ := index_facts t
  show V m c main_arg2 (((cfg0.win 2).blk t).view.emb (ix2 n g)) = V m c main_arg2 (ix2 (rowAt t n) g)
  refine congrArg (V m c main_arg2) (funext fun a => Fin.ext ?_)
  match a with
  | ⟨0, _⟩ => show win0_2.index t (0 : Fin 2) * 2048 + 1 * n.val = 2048 * (t.val / 4) + n.val; omega
  | ⟨1, _⟩ => show win0_2.index t (1 : Fin 2) * 32 + 1 * g.val = g.val; omega

theorem blkZ_apply (c : Dev nD) (t : Fin cfg0.N) (n : Fin 2048) (g : Fin 32) :
    blkZ m c t (ix2 n g) = arrZ m c (ix2 (rowAt t n) g) := by
  obtain ⟨-, -, -, -, -, -, e0, e1, -⟩ := index_facts t
  show V m c main_arg3 (((cfg0.win 3).blk t).view.emb (ix2 n g)) = V m c main_arg3 (ix2 (rowAt t n) g)
  refine congrArg (V m c main_arg3) (funext fun a => Fin.ext ?_)
  match a with
  | ⟨0, _⟩ => show win0_3.index t (0 : Fin 2) * 2048 + 1 * n.val = 2048 * (t.val / 4) + n.val; omega
  | ⟨1, _⟩ => show win0_3.index t (1 : Fin 2) * 32 + 1 * g.val = g.val; omega

/-- The eight group columns the body takes of a table block at point `t` are groups `8·(t % 4) + g`. -/
theorem groupCols_apply (t : Fin cfg0.N) (x : Vec F S2048x32 .f32) (n : Fin 2048) (g : Fin 8) :
    groupCols (grid0.coords t) x (ix2 n g) = x (ix2 n (groupAt t g)) := by
  obtain ⟨-, -, -, -, -, -, -, -, -, -, ek⟩ := index_facts t
  have h0 : k0_off1 (grid0.coords t) 0 = 0 := by rw [k0_off1_eq]; rfl
  have h1 : k0_off1 (grid0.coords t) 1 = 8 * (grid0.coords t 1).val := by rw [k0_off1_eq]; rfl
  show x ((Rect.unit (s := S2048x32) (k0_off1 (grid0.coords t)) S2048x8.size (k0_off1_inb (grid0.coords t))).idx (ix2 n g)) = x (ix2 n (groupAt t g))
  refine congrArg x (funext fun a => Fin.ext ?_)
  match a with
  | ⟨0, _⟩ => show k0_off1 (grid0.coords t) 0 + 1 * n.val = n.val; omega
  | ⟨1, _⟩ => show k0_off1 (grid0.coords t) 1 + 1 * g.val = 8 * (t.val % 4) + g.val; omega

end Cert.Dequant.Kernel

end
-- ==== Proof.GroupRepeat.lean ====
/-
  One value per group of 128 columns, repeated along the columns, read at an index.

  Both programs spread a `[rows, groups]` table of per-group values over `[rows, groups · 128]` columns the same way: give
  the table a third axis of length 128 on which every entry is repeated, then flatten the last two axes in row-major
  order. Entry `(r, c)` of the result is therefore the table's entry `(r, c / 128)`: the flat column `c` sits at position
  `c % 128` of group `c / 128`. The kernel does it on a `[2048, 8]` slice of the table (a reshape to `[2048, 8, 1]`, a
  broadcast to `[2048, 8, 128]`, a reshape to `[2048, 1024]`), the reference on the whole `[4096, 32]` table (a
  `broadcast_in_dim` to `[4096, 32, 128]`, a reshape to `[4096, 4096]`).
-/
import Idealize.ShloMosaic.Lib.ValueIdx
import Idealize.ShloMosaic.Lib.Pipeline.Value

noncomputable section

namespace Cert.Dequant

open Idealize.ShloMosaic Idealize.ShloMosaic.ValueIdx

/-- The kernel's spelling, on eight groups: entry `(r, c)` of the spread table is the table at `(r, c / 128)`. -/
theorem spread8_apply {α : Type} (v : (⟨2, ![2048, 8]⟩ : Shape).Idx → α)
    (h1 : (⟨2, ![2048, 8]⟩ : Shape).ShapeCasts ⟨3, ![2048, 8, 1]⟩)
    (h2 : (⟨3, ![2048, 8, 1]⟩ : Shape).Broadcasts ⟨3, ![2048, 8, 128]⟩)
    (h3 : (⟨3, ![2048, 8, 128]⟩ : Shape).ShapeCasts ⟨2, ![2048, 1024]⟩)
    (r : Fin 2048) (c : Fin 1024) (g : Fin 8) (hg : g.val = c.val / 128) :
    shapeCast ⟨2, ![2048, 1024]⟩ (broadcastTo ⟨3, ![2048, 8, 128]⟩ (shapeCast ⟨3, ![2048, 8, 1]⟩ v h1) h2) h3 (ix2 r c)
      = v (ix2 r g) := by
  have hc := c.isLt
  rw [shapeCast_apply _ h3 (ix2 r c) (ix3 r g (⟨c.val % 128, Nat.mod_lt _ (by decide)⟩ : Fin 128)) (by
    rw [Shape.rowMajor_val_three, Shape.rowMajor_val_two]
    show (r.val * 8 + g.val) * 128 + c.val % 128 = r.val * 1024 + c.val
    omega)]
  rw [broadcastTo_apply _ h2 _ (ix3 r g (0 : Fin 1)) (fun a => by
    match a with
    | ⟨0, _⟩ => rfl
    | ⟨1, _⟩ => rfl
    | ⟨2, _⟩ => rfl)]
  rw [shapeCast_apply _ h1 _ (ix2 r g) (by
    rw [Shape.rowMajor_val_three, Shape.rowMajor_val_two]
    show r.val * 8 + g.val = (r.val * 8 + g.val) * 1 + 0
    omega)]

/-- The reference's spelling, on all 32 groups: entry `(n, k)` of the spread table is the table at `(n, k / 128)`. -/
theorem spread32_apply {α : Type} (v : (⟨2, ![4096, 32]⟩ : Shape).Idx → α)
    (h1 : (⟨2, ![4096, 32]⟩ : Shape).BroadcastsInDim ⟨3, ![4096, 32, 128]⟩ (![0, 1] : Fin 2 → Fin 3))
    (h2 : (⟨3, ![4096, 32, 128]⟩ : Shape).ShapeCasts ⟨2, ![4096, 4096]⟩)
    (n k : Fin 4096) (g : Fin 32) (hg : g.val = k.val / 128) :
    shapeCast ⟨2, ![4096, 4096]⟩ (broadcastInDim ⟨3, ![4096, 32, 128]⟩ (![0, 1] : Fin 2 → Fin 3) h1 v) h2 (ix2 n k)
      = v (ix2 n g) := by
  have hk := k.isLt
  rw [shapeCast_apply _ h2 (ix2 n k) (ix3 n g (⟨k.val % 128, Nat.mod_lt _ (by decide)⟩ : Fin 128)) (by
    rw [Shape.rowMajor_val_three, Shape.rowMajor_val_two]
    show (n.val * 32 + g.val) * 128 + k.val % 128 = n.val * 4096 + k.val
    omega)]
  rw [broadcastInDim_apply _ h1 v _ (ix2 n g) (fun a => by
    match a with
    | ⟨0, _⟩ => rfl
    | ⟨1, _⟩ => rfl)]

end Cert.Dequant

end
-- ==== Proof.KernelStep.lean ====
/-
  One accumulation step of the kernel, read at an entry, on the extended reals.

  The body's arithmetic is `acc + a · wᵀ` with `w = (q - spread z') ⊙ spread s'`: the stored integers converted exactly, the
  eight zero points and eight scales of the block each spread over their 128 columns, and a product that contracts the
  1024 columns of the block into a zero accumulator. The change of float format before the product is the identity on
  the extended reals. So entry `(p, n)` of the step is `acc[p,n] + ∑ₖₖ a[p,kk] · w[n,kk]`, where
  `w[n,kk] = (q[n,kk] - z'[n,kk/128]) · s'[n,kk/128]`. The zero block the first step starts from is `0` everywhere.
-/
import proofs.«166284_j29970281792057_1_alg».proof.Proof.Gen.KernelIdeal.Skeleton
import proofs.«166284_j29970281792057_1_alg».proof.Proof.GroupRepeat
import Idealize.ShloMosaic.Lib.ValueIdx
import Idealize.ShloMosaic.Lib.Pipeline.Value
import Idealize.ShloMosaic.PureOps.Ideal.Laws

noncomputable section

open scoped BigOperators

namespace Cert.Dequant.Kernel

open Cert.KernelIdeal Cert.KernelIdeal.Gen
open Idealize.ShloMosaic Idealize.ShloMosaic.ValueIdx Cert.Dequant

/-- The group, among the block's eight, of column `kk` of a block of 1024 columns. -/
def groupIn (kk : Fin 1024) : Fin 8 := ⟨kk.val / 128, by have := kk.isLt; omega⟩

/-- The dequantised weight of a block at row `n`, column `kk`, from the block's integers and its eight scales and zero
    points per row. -/
def blockWeight (q : IVec S2048x1024 32) (sg zg : FVec Ideal S2048x8 .f32) (n : Fin 2048) (kk : Fin 1024) : EReal :=
  (FloatOps.sitofp (F := Ideal) .f32 (q (ix2 n kk)) - zg (ix2 n (groupIn kk))) * sg (ix2 n (groupIn kk))

/-! The product's operand indices: the left operand is read at (output row, contraction index), the right at (output
    column, contraction index). -/

theorem lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_col (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhs_row (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_col (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The block product into a zero accumulator, at entry `(p, n)`: the sum over the block's 1024 columns of the left
    operand at `(p, kk)` times the right operand at `(n, kk)`. -/
theorem blockProduct_apply (l : FVec Ideal S256x1024 .bf16) (r : FVec Ideal S2048x1024 .bf16) (p : Fin 256) (n : Fin 2048) :
    matmul dot_S256x1024_S2048x1024_S256x2048_1_1_0_0_n_n none l r (constant S256x2048 .f32 0x00000000#32) (ix2 p n)
      = ∑ kk : Fin 1024, l (ix2 p kk) * r (ix2 n kk) := by
  simp only [matmul]
  rw [Ideal.matmul_constant_zero_apply, ← Equiv.sum_comp (contrEquiv1 dot_S256x1024_S2048x1024_S256x2048_1_1_0_0_n_n 1024 rfl rfl).symm]
  refine Finset.sum_congr rfl fun kk _ => ?_
  have hk := contrEquiv1_symm_val dot_S256x1024_S2048x1024_S256x2048_1_1_0_0_n_n 1024 rfl rfl kk
  have el : dot_S256x1024_S2048x1024_S256x2048_1_1_0_0_n_n.lhsIdx (ix2 p n) ((contrEquiv1 dot_S256x1024_S2048x1024_S256x2048_1_1_0_0_n_n 1024 rfl rfl).symm kk) = ix2 p kk := funext fun a => Fin.ext (by
    match a with
    | ⟨0, _⟩ => exact lhs_row _ _
    | ⟨1, _⟩ => exact (lhs_col _ _).trans hk)
  have er : dot_S256x1024_S2048x1024_S256x2048_1_1_0_0_n_n.rhsIdx (ix2 p n) ((contrEquiv1 dot_S256x1024_S2048x1024_S256x2048_1_1_0_0_n_n 1024 rfl rfl).symm kk) = ix2 n kk := funext fun a => Fin.ext (by
    match a with
    | ⟨0, _⟩ => exact rhs_row _ _
    | ⟨1, _⟩ => exact (rhs_col _ _).trans hk)
  rw [el, er]

/-- THE STEP at entry `(p, n)`: the accumulator there plus the block's contribution `∑ₖₖ a[p,kk] · w[n,kk]`. -/
theorem step_apply (sg zg : FVec Ideal S2048x8 .f32) (q : IVec S2048x1024 32) (a : FVec Ideal S256x1024 .f32)
    (acc : FVec Ideal S256x2048 .f32) (p : Fin 256) (n : Fin 2048) :
    k0_pay2 (F := Ideal) sg zg q a acc (ix2 p n) = acc (ix2 p n) + ∑ kk : Fin 1024, a (ix2 p kk) * blockWeight q sg zg n kk := by
  unfold k0_pay2
  refine (congrFun (shapeCast_self _ _) (ix2 p n)).trans ?_
  refine congrArg (acc (ix2 p n) + ·) ?_
  refine (blockProduct_apply _ _ p n).trans ?_
  refine Finset.sum_congr rfl fun kk _ => ?_
  refine congrArg (a (ix2 p kk) * ·) ?_
  show (FloatOps.sitofp (F := Ideal) .f32 (q (ix2 n kk)) - _) * _ = _
  unfold blockWeight
  rw [spread8_apply zg _ _ _ n kk (groupIn kk) rfl, spread8_apply sg _ _ _ n kk (groupIn kk) rfl]

/-- The zero block the first step starts from is `0` at every entry. -/
theorem zero_apply (i : S256x2048.Idx) : k0_pay1 (F := Ideal) i = 0 := by
  unfold k0_pay1
  refine (congrFun (shapeCast_self _ _) i).trans ?_
  exact Ideal.ofBits_zero_f32

end Cert.Dequant.Kernel

end
-- ==== Proof.DequantSpec.lean ====
/-
  What both programs compute, as one function of the four argument arrays.

  The weight matrix is stored quantised: an integer `q[n,k]`, and per row `n` and per GROUP of 128 consecutive columns a
  zero point `z[n,g]` and a scale `s[n,g]`. The dequantised weight is `W[n,k] = (q[n,k] - z[n,k/128]) · s[n,k/128]`, and the
  result is `Y = A · Wᵀ`, that is `Y[m,n] = ∑ₖ A[m,k] · W[n,k]` over the 4096 columns — on the extended reals, where the
  integer is read exactly and every operation is the exact one.

  The contraction may be taken a block of 1024 columns at a time: a finite sum in a commutative monoid does not depend on
  how its index set is cut up (`sum_by_blocks`). Nothing here needs the summands to be finite.
-/
import Idealize.ShloMosaic.PureOps.Ideal
import Idealize.ShloMosaic.Lib.ValueIdx
import Mathlib.Algebra.BigOperators.Fin

noncomputable section

open scoped BigOperators

namespace Cert.Dequant

open Idealize.ShloMosaic Idealize.ShloMosaic.ValueIdx

/-- The quantisation group of column `k`: groups are runs of 128 consecutive columns. -/
def groupOf (k : Fin 4096) : Fin 32 := ⟨k.val / 128, by have := k.isLt; omega⟩

/-- The dequantised weight at row `n`, column `k`: the stored integer read exactly, minus its group's zero point, times
    its group's scale. -/
def weightAt (q : IVec ⟨2, ![4096, 4096]⟩ 32) (s z : FVec Ideal ⟨2, ![4096, 32]⟩ .f32) (n k : Fin 4096) : EReal :=
  (FloatOps.sitofp (F := Ideal) .f32 (q (ix2 n k)) - z (ix2 n (groupOf k))) * s (ix2 n (groupOf k))

/-- `Y = A · Wᵀ`: entry `(m, n)` is the sum over the columns `k` of `A[m,k] · W[n,k]`. -/
def product (A : FVec Ideal ⟨2, ![256, 4096]⟩ .f32) (q : IVec ⟨2, ![4096, 4096]⟩ 32) (s z : FVec Ideal ⟨2, ![4096, 32]⟩ .f32) :
    FVec Ideal ⟨2, ![256, 4096]⟩ .f32 :=
  fun i => ∑ k : Fin 4096, A (ix2 (i 0) k) * weightAt q s z (i 1) k

/-- Column `1024·b + kk` of the `b`-th block of 1024 columns. -/
def colOf (b : Fin 4) (kk : Fin 1024) : Fin 4096 := ⟨1024 * b.val + kk.val, by have := b.isLt; have := kk.isLt; omega⟩

/-- A sum over the 4096 columns is the sum over the four blocks of 1024 of each block's sum. -/
theorem sum_by_blocks {M : Type*} [AddCommMonoid M] (f : Fin 4096 → M) :
    ∑ k : Fin 4096, f k = ∑ b : Fin 4, ∑ kk : Fin 1024, f (colOf b kk) := by
  rw [← Fintype.sum_prod_type' (f := fun (b : Fin 4) (kk : Fin 1024) => f (colOf b kk))]
  refine (Fintype.sum_equiv (finProdFinEquiv (m := 4) (n := 1024)) _ _ fun p => ?_).symm
  refine congrArg f (Fin.ext ?_)
  show 1024 * p.1.val + p.2.val = p.2.val + 1024 * p.1.val
  omega

/-- The group of column `1024·b + kk` is `8·b + kk / 128`: a block of 1024 columns is eight whole groups. -/
theorem groupOf_colOf (b : Fin 4) (kk : Fin 1024) : (groupOf (colOf b kk)).val = 8 * b.val + kk.val / 128 := by
  show (1024 * b.val + kk.val) / 128 = _
  omega

end Cert.Dequant

end
-- ==== Proof.KernelFold.lean ====
/-
  What the kernel's result array holds after the run: `A · Wᵀ`.

  Within a row tile the accumulator is zeroed at the first column block and stepped at each of the four, so after the
  tile's `j`-th point it holds `0` plus the contributions of column blocks `0 … j` (the fold of the steps, unrolled);
  a block's contribution to entry `(p, n)` is `∑ₖₖ A[p, 1024·b + kk] · W[2048·tile + n, 1024·b + kk]` once the blocks are
  read where they sit in the arrays. After the fourth point that is the sum over all 4096 columns cut into four blocks,
  which is the whole contraction; the output block written there is a copy of the accumulator, and the two tiles' output
  blocks are the two halves of the result's columns.
-/
import proofs.«166284_j29970281792057_1_alg».proof.Proof.Gen.KernelIdeal.Value
import proofs.«166284_j29970281792057_1_alg».proof.Proof.KernelBlocks
import proofs.«166284_j29970281792057_1_alg».proof.Proof.KernelStep
import proofs.«166284_j29970281792057_1_alg».proof.Proof.DequantSpec
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.Dequant.Kernel

open Cert.KernelIdeal Cert.KernelIdeal.Gen Cert.KernelIdeal.Value Idealize.ShloMosaic.ValueIdx Cert.Dequant

variable (m : (ℓ : Loc nD τ sig) → Buf (Elt Ideal) ℓ) (ρ : Dev nD → PrngReg)

/-- The contribution of point `t`'s column block to entry `(p, n)` of its row tile, over the point's blocks. -/
def contrib (c : Dev nD) (t : Fin cfg0.N) (p : Fin 256) (n : Fin 2048) : EReal :=
  ∑ kk : Fin 1024, blkA m c t (ix2 p kk)
    * blockWeight (blkQ m c t) (groupCols (grid0.coords t) (blkS m c t)) (groupCols (grid0.coords t) (blkZ m c t)) n kk

/-- The same over the whole arrays: the block's columns of `A`'s row `p` against the dequantised weight's row
    `2048·(t / 4) + n`. -/
theorem contrib_eq (c : Dev nD) (t : Fin cfg0.N) (p : Fin 256) (n : Fin 2048) :
    contrib m c t p n = ∑ kk : Fin 1024, arrA m c (ix2 p (colAt t kk))
      * weightAt (arrQ m c) (arrS m c) (arrZ m c) (rowAt t n) (colAt t kk) := by
  unfold contrib
  refine Finset.sum_congr rfl fun kk _ => ?_
  rw [blkA_apply]
  refine congrArg (arrA m c (ix2 p (colAt t kk)) * ·) ?_
  unfold blockWeight weightAt
  have hg : groupAt t (groupIn kk) = groupOf (colAt t kk) := Fin.ext (by
    have := kk.isLt
    show 8 * (t.val % 4) + kk.val / 128 = (1024 * (t.val % 4) + kk.val) / 128
    omega)
  rw [blkQ_apply, groupCols_apply, groupCols_apply, blkS_apply, blkZ_apply, hg]

/-- At a tile's first point the accumulator is left at `0` plus the point's contribution, whatever it held. -/
theorem scratch_first (c : Dev nD) (n : ℕ) (h : n < cfg0.N) (h0 : n % 4 = 0) (acc : Vec Ideal S256x2048 .f32)
    (p : Fin 256) (r : Fin 2048) :
    scAt0_0 m c n h acc (ix2 p r) = 0 + contrib m c ⟨n, h⟩ p r := by
  have h1 : ¬n % 4 = 3 := by omega
  unfold scAt0_0
  rw [dif_pos h0, dif_neg h1]
  refine (congrFun (acc_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) (ix2 p r)).trans ?_
  refine (step_apply _ _ _ _ _ p r).trans ?_
  rw [zero_apply]
  rfl

/-- At every later point of the tile it is left at what it held plus the point's contribution. -/
theorem scratch_later (c : Dev nD) (n : ℕ) (h : n < cfg0.N) (h0 : ¬n % 4 = 0) (acc : Vec Ideal S256x2048 .f32)
    (p : Fin 256) (r : Fin 2048) :
    scAt0_0 m c n h acc (ix2 p r) = acc (ix2 p r) + contrib m c ⟨n, h⟩ p r := by
  unfold scAt0_0
  rw [dif_neg h0]
  by_cases h1 : n % 4 = 3
  · rw [dif_pos h1]
    refine (congrFun (acc_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p r)).trans ?_
    exact step_apply _ _ _ _ _ p r
  · rw [dif_neg h1]
    refine (congrFun (acc_middle c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p r)).trans ?_
    exact step_apply _ _ _ _ _ p r

/-- Point `n`'s contribution as a function of every natural `n` (nothing past the grid). -/
def addend (c : Dev nD) (n : ℕ) (i : S256x2048.Idx) : EReal :=
  if h : n < cfg0.N then contrib m c ⟨n, h⟩ (i 0) (i 1) else 0

/-- THE ACCUMULATOR after point `t`: `0` plus the contributions of its tile's points up to `t`. -/
theorem scratch_after (c : Dev nD) (t : Fin cfg0.N) (i : S256x2048.Idx) :
    (outsAt0 m c t.val t.isLt).2 i = 0 + ∑ s ∈ Finset.range (t.val % 4 + 1), addend m c (4 * (t.val / 4) + s) i := by
  rw [soutsAt0_0_eq]
  refine Pipeline.accAt_add_apply (fun n h => scAt0_0 m c n h (VS0_0.read (Elt Ideal) VS0_0.junk)) (scAt0_0 m c) (fun _ => 0)
    (addend m c) (4 * (t.val / 4)) 3 ?_ ?_ (t.val % 4) (by omega) _ i
  · intro h j
    obtain ⟨p, r, rfl⟩ : ∃ (p : Fin 256) (r : Fin 2048), j = ix2 p r := ⟨j 0, j 1, eq_ix2 j⟩
    unfold addend
    rw [dif_pos h]
    exact scratch_first m c _ h (by omega) _ p r
  · intro n h acc j hlo hhi
    obtain ⟨p, r, rfl⟩ : ∃ (p : Fin 256) (r : Fin 2048), j = ix2 p r := ⟨j 0, j 1, eq_ix2 j⟩
    unfold addend
    rw [dif_pos h]
    exact scratch_later m c n h (by omega) acc p r

/-- A tile's four contributions to an entry add up to the entry of `A · Wᵀ`: the four blocks of 1024 columns are all
    4096 columns. -/
theorem tile_total (c : Dev nD) (q : ℕ) (hq : q < 2) (p : Fin 256) (r : Fin 2048) :
    ∑ s ∈ Finset.range 4, addend m c (4 * q + s) (ix2 p r)
      = product (arrA m c) (arrQ m c) (arrS m c) (arrZ m c) (ix2 p (⟨2048 * q + r.val, by have := r.isLt; omega⟩ : Fin 4096)) := by
  have hr := r.isLt
  rw [Finset.sum_range]
  show _ = ∑ k : Fin 4096, arrA m c (ix2 p k) * weightAt (arrQ m c) (arrS m c) (arrZ m c) ⟨2048 * q + r.val, _⟩ k
  rw [sum_by_blocks]
  refine Finset.sum_congr rfl fun b _ => ?_
  have hb := b.isLt
  have hN : 4 * q + b.val < cfg0.N := lt_of_lt_of_eq (by omega : 4 * q + b.val < 8) (N_0).symm
  unfold addend
  rw [dif_pos hN]
  show contrib m c ⟨4 * q + b.val, hN⟩ p r = _
  rw [contrib_eq]
  refine Finset.sum_congr rfl fun kk _ => ?_
  have ec : colAt (⟨4 * q + b.val, hN⟩ : Fin cfg0.N) kk = colOf b kk := Fin.ext (by
    show 1024 * ((4 * q + b.val) % 4) + kk.val = 1024 * b.val + kk.val
    omega)
  have er : rowAt (⟨4 * q + b.val, hN⟩ : Fin cfg0.N) r = (⟨2048 * q + r.val, by omega⟩ : Fin 4096) := Fin.ext (by
    show 2048 * ((4 * q + b.val) / 4) + r.val = 2048 * q + r.val
    omega)
  rw [ec, er]

/-- The result array after the run. -/
abbrev result (c : Dev nD) : Buf (Elt Ideal) ((c : Thread nD τ).loc main_v0) :=
  product (arrA m c) (arrQ m c) (arrS m c) (arrZ m c)

/-- WHAT A TILE'S LAST POINT WRITES BACK is its block of `A · Wᵀ`: the output block there is a copy of the accumulator,
    which holds the tile's four contributions. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  have ht := lt8 t
  obtain ⟨-, -, -, -, -, -, -, -, e0, e1, -⟩ := index_facts t
  rw [flushed4]
  have hcopy : (outsAt0 m c t.val t.isLt).1 = (outsAt0 m c t.val t.isLt).2 := by
    rw [outsAt0_C m c t h0 h3]
    dsimp only
    exact (out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).trans
      (acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t) (outsAt0 m c (t.val - 1) (Nat.lt_of_le_of_lt (Nat.sub_le _ _) t.isLt)).2).symm
  funext j
  obtain ⟨p, r, rfl⟩ : ∃ (p : Fin 256) (r : Fin 2048), j = ix2 p r := ⟨j 0, j 1, eq_ix2 j⟩
  show (outsAt0 m c t.val t.isLt).1 (ix2 p r) = result m c (((cfg0.win 4).blk t).view.emb (ix2 p r))
  have hemb : ((cfg0.win 4).blk t).view.emb (ix2 p r) = ix2 p (⟨2048 * (t.val / 4) + r.val, by have := r.isLt; omega⟩ : Fin 4096) := by
    funext a; apply Fin.ext
    match a with
    | ⟨0, _⟩ => show win0_4.index t (0 : Fin 2) * 256 + 1 * p.val = p.val; omega
    | ⟨1, _⟩ => show win0_4.index t (1 : Fin 2) * 2048 + 1 * r.val = 2048 * (t.val / 4) + r.val; omega
  rw [hcopy, scratch_after, h3, hemb, zero_add]
  exact tile_total m c (t.val / 4) (by omega) p r

/-- An entry of the result lies in point `t`'s output block iff it does axis by axis. -/
theorem mem_blk (t : Fin cfg0.N) (i : S256x4096.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v0).slice (win0_4.rect t)).set ↔ _
  rw [View.set_slice_whole, Rect.mem_set_unit]
  exact Iff.rfl

/-- THE RESULT ARRAY after the run is `A · Wᵀ`: entry `(p, n)` is written by the last point of row tile `n / 2048`. -/
theorem final (c : Dev nD) : (dats m 0 c).arrAt 4 cfg0.N = result m c :=
  (dats m 0 c).arrAt_eq_of_cover 4 (result m c) (flushed_eq m c) fun i => by
    have hi0 : (i 0).val < 256 := (i 0).isLt
    have hi1 : (i 1).val < 4096 := (i 1).isLt
    have hN : 4 * ((i 1).val / 2048) + 3 < cfg0.N := lt_of_lt_of_eq (by omega : 4 * ((i 1).val / 2048) + 3 < 8) (N_0).symm
    refine ⟨⟨4 * ((i 1).val / 2048) + 3, hN⟩, (flush0_4 _).mpr (by show (4 * ((i 1).val / 2048) + 3) % 4 = 3; omega), ?_⟩
    obtain ⟨-, -, -, -, -, -, -, -, e0, e1, -⟩ := index_facts ⟨4 * ((i 1).val / 2048) + 3, hN⟩
    have e1' : win0_4.index ⟨4 * ((i 1).val / 2048) + 3, hN⟩ (1 : Fin 2) = (i 1).val / 2048 := by
      rw [e1]; show (4 * ((i 1).val / 2048) + 3) / 4 = _; omega
    rw [mem_blk]
    intro a
    match a with
    | ⟨0, _⟩ => show win0_4.index ⟨4 * ((i 1).val / 2048) + 3, hN⟩ (0 : Fin 2) * 256 ≤ (i 0).val ∧ (i 0).val < win0_4.index ⟨4 * ((i 1).val / 2048) + 3, hN⟩ (0 : Fin 2) * 256 + 256; omega
    | ⟨1, _⟩ => show win0_4.index ⟨4 * ((i 1).val / 2048) + 3, hN⟩ (1 : Fin 2) * 2048 ≤ (i 1).val ∧ (i 1).val < win0_4.index ⟨4 * ((i 1).val / 2048) + 3, hN⟩ (1 : Fin 2) * 2048 + 2048; omega

/-- The run, read: every weakly fair execution ends with the result array at `A · Wᵀ` of the argument arrays, which are
    unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Dequant.Kernel

end
-- ==== Proof.RefIsProduct.lean ====
/-
  The reference computes `A · Wᵀ`.

  Its last operation contracts `A`'s columns against the columns of the dequantised weight, so its entry `(m, n)` is the sum
  over `k` of `A[m,k]` times the weight operand at `(n, k)`. That operand is built entry by entry: the stored integer
  converted exactly, minus the zero-point table spread over the columns, times the scale table spread over the columns;
  and a spread table at `(n, k)` is the table at `(n, k / 128)`. So the operand at `(n, k)` is `W[n,k]`.
-/
import proofs.«166284_j29970281792057_1_alg».proof.Proof.Gen.ReferenceIdeal.Read
import proofs.«166284_j29970281792057_1_alg».proof.Proof.DequantSpec
import proofs.«166284_j29970281792057_1_alg».proof.Proof.GroupRepeat

noncomputable section

open scoped BigOperators

namespace Cert.Dequant.Reference

open Cert.ReferenceIdeal Cert.ReferenceIdeal.Gen Cert.ReferenceIdeal.Read
open Idealize.ShloMosaic Idealize.ShloMosaic.ValueIdx Cert.Dequant

/-- The weight operand of the reference's contraction, at row `n` and column `k`, is the dequantised weight `W[n,k]`. -/
theorem weight_apply (x1 : (⟨S4096x4096, .i32⟩ : BufTy).Contents (Elt Ideal)) (x2 x3 : (⟨S4096x32, .f32⟩ : BufTy).Contents (Elt Ideal))
    (n k : Fin 4096) : val_main_v6 (F := Ideal) x1 x2 x3 (ix2 n k) = weightAt x1 x2 x3 n k := by
  rw [val_main_v6_apply, val_main_v5_apply, val_main_v4_apply]
  unfold val_main_v1 val_main_v0 val_main_v3 val_main_v2
  rw [spread32_apply x2 _ _ n k (groupOf k) rfl, spread32_apply x3 _ _ n k (groupOf k) rfl]
  rfl

/-- The reference's result is `A · Wᵀ` of its four arguments. -/
theorem result_eq_product (x0 : (⟨S256x4096, .f32⟩ : BufTy).Contents (Elt Ideal)) (x1 : (⟨S4096x4096, .i32⟩ : BufTy).Contents (Elt Ideal))
    (x2 x3 : (⟨S4096x32, .f32⟩ : BufTy).Contents (Elt Ideal)) :
    val_main_v7 (F := Ideal) x0 x1 x2 x3 = product x0 x1 x2 x3 := by
  funext i
  obtain ⟨p, n, rfl⟩ : ∃ (p : Fin 256) (n : Fin 4096), i = ix2 p n := ⟨i 0, i 1, eq_ix2 i⟩
  rw [val_main_v7_apply]
  show _ = ∑ k : Fin 4096, x0 (ix2 p k) * weightAt x1 x2 x3 n k
  refine Finset.sum_congr rfl fun k _ => ?_
  have el : lidx_main_v7 (ix2 p n) k = ix2 p k := funext fun a => by
    match a with
    | ⟨0, _⟩ => rfl
    | ⟨1, _⟩ => rfl
  have er : ridx_main_v7 (ix2 p n) k = ix2 n k := funext fun a => by
    match a with
    | ⟨0, _⟩ => rfl
    | ⟨1, _⟩ => rfl
  rw [el, er, weight_apply]

end Cert.Dequant.Reference

end
-- ==== Proof.lean ====
/-
  The certificate: a quantised-weight matrix product, K-blocked on a grid, against its one-line reference.

  Both programs compute `Y = A · Wᵀ` over f32[256, 4096] × [4096, 4096], where the weight is stored as integers with a
  zero point and a scale per row and per group of 128 columns: `W[n,k] = (q[n,k] - z[n,k/128]) · s[n,k/128]`. The reference
  spreads the two tables over the columns, dequantises the whole matrix and contracts once over the 4096 columns. The kernel
  walks a 2 × 4 grid — two tiles of 2048 weight rows, four blocks of 1024 columns —, dequantises one `[2048, 1024]` block
  per point, multiplies it into a zeroed accumulator, adds the four products of a tile in a scratch buffer, and copies the
  scratch to the output block at the tile's last point.

  On the extended reals, where the integer is read exactly, a change of float format is the identity and a matrix product
  is the plain sum of products, the two are one function: entry `(m, n)` of the kernel's result is
  `0 + ∑_b ∑_kk A[m, 1024·b + kk] · W[n, 1024·b + kk]`, and cutting the 4096 columns into four runs of 1024 does not change
  a finite sum in a commutative monoid (Proof/DequantSpec.lean `sum_by_blocks`). No cancellation or distributivity is
  used, so the precondition (finite inputs) is never opened.

    Proof/DequantSpec.lean   the common function `product`, and the regrouping of the sum
    Proof/GroupRepeat.lean   a per-group table spread over the columns, read at an entry (both programs' spellings)
    Proof/RefIsProduct.lean  the reference's result is `product`
    Proof/KernelPieces.lean  what one run of the body leaves in the accumulator and the output block, per control case
    Proof/KernelStep.lean    one accumulation step read at an entry
    Proof/KernelBlocks.lean  where each grid point's blocks sit in the arrays
    Proof/KernelFold.lean    the accumulator after each point, the block written back, the whole result array

  The three frames are the generated ones (the reference's is its generated run with the result dropped); the ideal pass
  rewrote nothing, so `preserves` is trivial.
-/
import proofs.«166284_j29970281792057_1_alg».proof.Defs
import proofs.«166284_j29970281792057_1_alg».proof.Proof.Gen.Kernel
import proofs.«166284_j29970281792057_1_alg».proof.Proof.Gen.Kernel.Skeleton
import proofs.«166284_j29970281792057_1_alg».proof.Proof.Gen.Kernel.Launch
import proofs.«166284_j29970281792057_1_alg».proof.Proof.Gen.Kernel.Points
import proofs.«166284_j29970281792057_1_alg».proof.Proof.Gen.Kernel.Frame
import proofs.«166284_j29970281792057_1_alg».proof.Proof.Gen.KernelIdeal
import proofs.«166284_j29970281792057_1_alg».proof.Proof.Gen.KernelIdeal.Skeleton
import proofs.«166284_j29970281792057_1_alg».proof.Proof.Gen.KernelIdeal.Launch
import proofs.«166284_j29970281792057_1_alg».proof.Proof.Gen.KernelIdeal.Points
import proofs.«166284_j29970281792057_1_alg».proof.Proof.Gen.KernelIdeal.Frame
import proofs.«166284_j29970281792057_1_alg».proof.Proof.Gen.ReferenceIdeal
import proofs.«166284_j29970281792057_1_alg».proof.Proof.Gen.Pre_finite_inputs
import proofs.«166284_j29970281792057_1_alg».proof.Proof.Gen.KernelIdeal.Value
import proofs.«166284_j29970281792057_1_alg».proof.Proof.Gen.ReferenceIdeal.Run
import proofs.«166284_j29970281792057_1_alg».proof.Proof.Gen.ReferenceIdeal.Read
import proofs.«166284_j29970281792057_1_alg».proof.Proof.KernelFold
import proofs.«166284_j29970281792057_1_alg».proof.Proof.RefIsProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `A · Wᵀ` of their arguments, and the arguments agree. -/
theorem algebraic : Cert.algebraic_KernelIdeal_ReferenceIdeal := by
  intro m ρ m' ρ' _ hagree
  refine ⟨_, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Dequant.Reference.result_eq_product,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
